-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x100000 : Shape := ⟨2, ![2048, 100000]⟩
abbrev S100000x1 : Shape := ⟨2, ![100000, 1]⟩
abbrev S100000x16 : Shape := ⟨2, ![100000, 16]⟩
abbrev S_ : Shape := ⟨0, ![]⟩

class Facts : Prop where
  bcast_S_S2048x100000 : S_.BroadcastsInDim S2048x100000 (![] : Fin 0 → Fin S2048x100000.rank)
  reducesTo_S2048x100000_S_d0_1 : S2048x100000.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S2048x100000 .f32) (main_arg1 : FVec F S100000x1 .f32) (main_arg2 : FVec F S100000x16 .f32) : IVec S_ 1 :=
  let main_v0 : FVec F S2048x100000 .f32 := Host.absf main_arg0
  let main_cst : FVec F S_ .f32 := constant S_ .f32 0x7F800000#32
  let main_v1 : FVec F S2048x100000 .f32 := broadcastInDim S2048x100000 ![] bcast_S_S2048x100000 main_cst
  let main_v2 : IVec S2048x100000 1 := cmpf .olt main_v0 main_v1
  let main_c : IVec S_ 1 := constantI S_ 1 1#1
  let main_v3 : IVec S_ 1 := (fun x v => Host.reduce IntOp.andi x v reducesTo_S2048x100000_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x16 .f32 := Host.absf main_arg2
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  main_v13
-- ==== Kernel.lean ====
abbrev S2048x100000 : Shape := ⟨2, ![2048, 100000]⟩
abbrev S100000x1 : Shape := ⟨2, ![100000, 1]⟩
abbrev S100000x16 : Shape := ⟨2, ![100000, 16]⟩
abbrev S_ : Shape := ⟨0, ![]⟩
abbrev S2048x102400 : Shape := ⟨2, ![2048, 102400]⟩
abbrev S102400x1 : Shape := ⟨2, ![102400, 1]⟩
abbrev S102400x16 : Shape := ⟨2, ![102400, 16]⟩
abbrev S2048 : Shape := ⟨1, ![2048]⟩
abbrev S512x4096 : Shape := ⟨2, ![512, 4096]⟩
abbrev S4096x1 : Shape := ⟨2, ![4096, 1]⟩
abbrev S4096x16 : Shape := ⟨2, ![4096, 16]⟩
abbrev S512 : Shape := ⟨1, ![512]⟩
abbrev S512x1 : Shape := ⟨2, ![512, 1]⟩
abbrev S512x16 : Shape := ⟨2, ![512, 16]⟩

abbrev nBuf : Space → Nat
  | .hbm => 17
  | .vmem => 13
  | .smem => 0
  | _ => 0

abbrev bufTy : (tb : Table) → Fin (tcTables nBuf tb) → BufTy
  | .hbm, ⟨0, _⟩ => ⟨S2048x100000, .f32⟩
  | .hbm, ⟨1, _⟩ => ⟨S100000x1, .f32⟩
  | .hbm, ⟨2, _⟩ => ⟨S100000x16, .f32⟩
  | .hbm, ⟨3, _⟩ => ⟨S_, .i32⟩
  | .hbm, ⟨4, _⟩ => ⟨S_, .f32⟩
  | .hbm, ⟨5, _⟩ => ⟨S2048x102400, .f32⟩
  | .hbm, ⟨6, _⟩ => ⟨S_, .i32⟩
  | .hbm, ⟨7, _⟩ => ⟨S_, .f32⟩
  | .hbm, ⟨8, _⟩ => ⟨S102400x1, .f32⟩
  | .hbm, ⟨9, _⟩ => ⟨S_, .i32⟩
  | .hbm, ⟨10, _⟩ => ⟨S_, .f32⟩
  | .hbm, ⟨11, _⟩ => ⟨S102400x16, .f32⟩
  | .hbm, ⟨12, _⟩ => ⟨S102400x1, .bf16⟩
  | .hbm, ⟨13, _⟩ => ⟨S102400x16, .bf16⟩
  | .hbm, ⟨14, _⟩ => ⟨S102400x16, .f32⟩
  | .hbm, ⟨15, _⟩ => ⟨S102400x16, .bf16⟩
  | .hbm, ⟨16, _⟩ => ⟨S2048, .f32⟩
  | .local _ .vmem, ⟨0, _⟩ => ⟨S512x4096, .f32⟩
  | .local _ .vmem, ⟨1, _⟩ => ⟨S512x4096, .f32⟩
  | .local _ .vmem, ⟨2, _⟩ => ⟨S4096x1, .bf16⟩
  | .local _ .vmem, ⟨3, _⟩ => ⟨S4096x1, .bf16⟩
  | .local _ .vmem, ⟨4, _⟩ => ⟨S4096x16, .bf16⟩
  | .local _ .vmem, ⟨5, _⟩ => ⟨S4096x16, .bf16⟩
  | .local _ .vmem, ⟨6, _⟩ => ⟨S4096x16, .bf16⟩
  | .local _ .vmem, ⟨7, _⟩ => ⟨S4096x16, .bf16⟩
  | .local _ .vmem, ⟨8, _⟩ => ⟨S512, .f32⟩
  | .local _ .vmem, ⟨9, _⟩ => ⟨S512, .f32⟩
  | .local _ .vmem, ⟨10, _⟩ => ⟨S512x1, .f32⟩
  | .local _ .vmem, ⟨11, _⟩ => ⟨S512x16, .f32⟩
  | .local _ .vmem, ⟨12, _⟩ => ⟨S512x16, .f32⟩
  | _, _ => ⟨S2048x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v31 : BitVec 1 := Scalar.cmpi .eq arg1 c24_i32
  let v32 : BitVec 32 := Scalar.extui v31
  let c0_i32_22 : BitVec 32 := 0#32
  let v33 : BitVec 1 := Scalar.cmpi .ne v32 c0_i32_22
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S2048x100000_S2048x102400_000_024000 : S2048x100000.Pads (![0, 0] : Fin 2 → Nat) ![0, 2400] ![0, 0] S2048x102400
  h_S_ : 0 < S_.numel
  pads_S100000x1_S102400x1_024000_000 : S100000x1.Pads (![0, 0] : Fin 2 → Nat) ![2400, 0] ![0, 0] S102400x1
  pads_S100000x16_S102400x16_024000_000 : S100000x16.Pads (![0, 0] : Fin 2 → Nat) ![2400, 0] ![0, 0] S102400x16
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  shapeCasts_S512x1_S512 : S512x1.ShapeCasts S512
  reduces_S512x16_S512 : S512x16.Reduces [1] S512
  inb_S512_S512_0 : ∀ a, (![0] : Fin 1 → Nat) a + S512.size a ≤ S512.size a
  h_S512 : 0 < S512.numel
  dot_S512x4096_S4096x1_S512x1_1_0_0_1_n_n_wf : DotDims.WF S512x4096 S4096x1 S512x1 [1] [0] [0] [1] [] []
  dot_S512x4096_S4096x16_S512x16_1_0_0_1_n_n_wf : DotDims.WF S512x4096 S4096x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x102400.size a
  hwx0_0 : ∀ i : grid0.Coords, EltTy.bits .f32 = 32 ∨ (Rect.block (s := S2048x102400) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S102400x1.size a
  hwx0_1 : ∀ i : grid0.Coords, EltTy.bits .bf16 = 32 ∨ (Rect.block (s := S102400x1) S4096x1.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S102400x16.size a
  hwx0_2 : ∀ i : grid0.Coords, EltTy.bits .bf16 = 32 ∨ (Rect.block (s := S102400x16) S4096x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S102400x16.size a
  hwx0_3 : ∀ i : grid0.Coords, EltTy.bits .bf16 = 32 ∨ (Rect.block (s := S102400x16) S4096x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S2048.size a
  hwx0_4 : ∀ i : grid0.Coords, EltTy.bits .f32 = 32 ∨ (Rect.block (s := S2048) S512.size (cc0_transform_4 i) (hinb0_4 i)).WholeWords (EltTy.packing .f32)

variable [Facts₀]

def dot_S512x4096_S4096x1_S512x1_1_0_0_1_n_n : DotDims S512x4096 S4096x1 S512x1 where
  lhsContracting := [1]
  rhsContracting := [0]
  lhsNonContracting := [0]
  rhsNonContracting := [1]
  lhsBatch := []
  rhsBatch := []
  wf := dot_S512x4096_S4096x1_S512x1_1_0_0_1_n_n_wf
def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x100000 : Shape := ⟨2, ![2048, 100000]⟩
abbrev S100000x1 : Shape := ⟨2, ![100000, 1]⟩
abbrev S100000x16 : Shape := ⟨2, ![100000, 16]⟩
abbrev S2048x1 : Shape := ⟨2, ![2048, 1]⟩
abbrev S2048 : Shape := ⟨1, ![2048]⟩
abbrev S2048x16 : Shape := ⟨2, ![2048, 16]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x100000, .f32⟩
  | .hbm, ⟨1, _⟩ => ⟨S100000x1, .f32⟩
  | .hbm, ⟨2, _⟩ => ⟨S100000x16, .f32⟩
  | .hbm, ⟨3, _⟩ => ⟨S2048x1, .f32⟩
  | .hbm, ⟨4, _⟩ => ⟨S2048, .f32⟩
  | .hbm, ⟨5, _⟩ => ⟨S2048x16, .f32⟩
  | .hbm, ⟨6, _⟩ => ⟨S2048x16, .f32⟩
  | .hbm, ⟨7, _⟩ => ⟨S2048x100000, .f32⟩
  | .hbm, ⟨8, _⟩ => ⟨S100000x16, .f32⟩
  | .hbm, ⟨9, _⟩ => ⟨S2048x16, .f32⟩
  | .hbm, ⟨10, _⟩ => ⟨S2048x16, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048, .f32⟩
  | _, _ => ⟨S2048x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S2048x1_S2048 : S2048x1.ShapeCasts S2048
  reducesTo_S2048x16_S2048_d1 : S2048x16.ReducesTo [1] S2048
  h_S_ : 0 < S_.numel
  bcast_S_S2048 : S_.BroadcastsInDim S2048 (![] : Fin 0 → Fin S2048.rank)
  dot_S2048x100000_S100000x1_S2048x1_1_0_0_1_n_n_wf : DotDims.WF S2048x100000 S100000x1 S2048x1 [1] [0] [0] [1] [] []
  dot_S2048x100000_S100000x16_S2048x16_1_0_0_1_n_n_wf : DotDims.WF S2048x100000 S100000x16 S2048x16 [1] [0] [0] [1] [] []

variable [Facts₀]

def dot_S2048x100000_S100000x1_S2048x1_1_0_0_1_n_n : DotDims S2048x100000 S100000x1 S2048x1 where
  lhsContracting := [1]
  rhsContracting := [0]
  lhsNonContracting := [0]
  rhsNonContracting := [1]
  lhsBatch := []
  rhsBatch := []
  wf := dot_S2048x100000_S100000x1_S2048x1_1_0_0_1_n_n_wf
def dot_S2048x100000_S100000x16_S2048x16_1_0_0_1_n_n : DotDims S2048x100000 S100000x16 S2048x16 where
  lhsContracting := [1]
  rhsContracting := [0]
  lhsNonContracting := [0]
  rhsNonContracting := [1]
  lhsBatch := []
  rhsBatch := []
  wf := dot_S2048x100000_S100000x16_S2048x16_1_0_0_1_n_n_wf

class Facts : Prop extends Facts₀ where

variable [Facts]
-- ==== Proof.FmSpec.lean ====
/-
  The factorization-machine score as one function of the three arrays, and the sum identities that join the two programs.

  For a batch row b, with x : [2048, 100000], w : [100000, 1], v : [100000, 16]:

    row b = ∑_d x(b,d)·w(d,0) + ½ · ∑_j ( (∑_d x(b,d)·v(d,j))² − ∑_d x(b,d)²·v(d,j)² ).

  One program takes each inner sum over d in one piece. The other pads the d axis with zeros up to 25·4096 = 102400
  and adds up 25 partial sums of 4096 terms each, starting from zero. On the extended reals addition is commutative and
  associative and 0·0 = 0, so the two readings agree; no finiteness is needed.
-/
import Idealize.ShloMosaic.PureOps.Ideal.Laws
import Idealize.ShloMosaic.Lib.ValueIdx

noncomputable section

open scoped BigOperators

namespace Cert.Fm

open Idealize.ShloMosaic Idealize.ShloMosaic.ValueIdx

abbrev SX : Shape := ⟨2, ![2048, 100000]⟩
abbrev SW : Shape := ⟨2, ![100000, 1]⟩
abbrev SV : Shape := ⟨2, ![100000, 16]⟩
abbrev SO : Shape := ⟨1, ![2048]⟩

/-- The factor one half, as the f32 word both programs carry. -/
abbrev half : EReal := Ideal.ofBits .f32 0x3F000000#32

/-- The first-order term of row b: ∑_d x(b,d)·w(d,0). -/
def lin (x : SX.Idx → EReal) (w : SW.Idx → EReal) (b : Fin 2048) : EReal :=
  ∑ d : Fin 100000, x (ix2 b d) * w (ix2 d (0 : Fin 1))

/-- The projection of row b on factor j: ∑_d x(b,d)·v(d,j). -/
def cross (x : SX.Idx → EReal) (v : SV.Idx → EReal) (b : Fin 2048) (j : Fin 16) : EReal :=
  ∑ d : Fin 100000, x (ix2 b d) * v (ix2 d j)

/-- The sum of squared products of row b on factor j: ∑_d x(b,d)²·v(d,j)². -/
def sqs (x : SX.Idx → EReal) (v : SV.Idx → EReal) (b : Fin 2048) (j : Fin 16) : EReal :=
  ∑ d : Fin 100000, (x (ix2 b d) * x (ix2 b d)) * (v (ix2 d j) * v (ix2 d j))

/-- The score of row b. -/
def row (x : SX.Idx → EReal) (w : SW.Idx → EReal) (v : SV.Idx → EReal) (b : Fin 2048) : EReal :=
  lin x w b + half * ∑ j : Fin 16, (cross x v b j * cross x v b j - sqs x v b j)

/-- The whole result: entry b is the score of row b. -/
def G (x : SX.Idx → EReal) (w : SW.Idx → EReal) (v : SV.Idx → EReal) : SO.Idx → EReal := fun i => row x w v (i 0)

/-! ## The arrays continued by zero -/

/-- x continued by zero outside its extents. -/
def xN (x : SX.Idx → EReal) (b d : ℕ) : EReal :=
  if h : b < 2048 ∧ d < 100000 then x (ix2 ⟨b, h.1⟩ ⟨d, h.2⟩) else 0

/-- w continued by zero outside its extents. -/
def wN (w : SW.Idx → EReal) (d q : ℕ) : EReal :=
  if h : d < 100000 ∧ q < 1 then w (ix2 ⟨d, h.1⟩ ⟨q, h.2⟩) else 0

/-- v continued by zero outside its extents. -/
def vN (v : SV.Idx → EReal) (d j : ℕ) : EReal :=
  if h : d < 100000 ∧ j < 16 then v (ix2 ⟨d, h.1⟩ ⟨j, h.2⟩) else 0

theorem xN_of_lt (x : SX.Idx → EReal) (b : Fin 2048) (d : Fin 100000) : xN x b.val d.val = x (ix2 b d) := by
  unfold xN; rw [dif_pos ⟨b.isLt, d.isLt⟩]

theorem wN_of_lt (w : SW.Idx → EReal) (d : Fin 100000) (q : Fin 1) : wN w d.val q.val = w (ix2 d q) := by
  unfold wN; rw [dif_pos ⟨d.isLt, q.isLt⟩]

theorem vN_of_lt (v : SV.Idx → EReal) (d : Fin 100000) (j : Fin 16) : vN v d.val j.val = v (ix2 d j) := by
  unfold vN; rw [dif_pos ⟨d.isLt, j.isLt⟩]

theorem xN_of_ge (x : SX.Idx → EReal) (b d : ℕ) (h : 100000 ≤ d) : xN x b d = 0 := by
  unfold xN; rw [dif_neg (fun h' => absurd h'.2 (Nat.not_lt.2 h))]

theorem wN_of_ge (w : SW.Idx → EReal) (d q : ℕ) (h : 100000 ≤ d) : wN w d q = 0 := by
  unfold wN; rw [dif_neg (fun h' => absurd h'.1 (Nat.not_lt.2 h))]

theorem vN_of_ge (v : SV.Idx → EReal) (d j : ℕ) (h : 100000 ≤ d) : vN v d j = 0 := by
  unfold vN; rw [dif_neg (fun h' => absurd h'.1 (Nat.not_lt.2 h))]

/-! ## Twenty-five partial sums of 4096 terms are one sum of 100000 terms -/

/-- Partial sums over consecutive stretches of 4096 add up to the sum over the whole initial segment. -/
theorem sum_stretches (f : ℕ → EReal) (n : ℕ) :
    ∑ s ∈ Finset.range n, ∑ κ : Fin 4096, f (4096 * s + κ.val) = ∑ d ∈ Finset.range (4096 * n), f d := by
  induction n with
  | zero => simp
  | succ n ih =>
    rw [Finset.sum_range_succ, ih, Nat.mul_succ, Finset.sum_range_add]
    exact congrArg (HAdd.hAdd _) (Finset.sum_range fun y => f (4096 * n + y)).symm

/-- For a summand that vanishes from 100000 on, the 25 partial sums of 4096 terms add up to the sum of the first 100000
    terms: the last 2400 terms of the last stretch are zero. -/
theorem sum_blocks (f : ℕ → EReal) (hf : ∀ d, 100000 ≤ d → f d = 0) :
    ∑ s ∈ Finset.range 25, ∑ κ : Fin 4096, f (4096 * s + κ.val) = ∑ d : Fin 100000, f d.val := by
  rw [sum_stretches f 25, show 4096 * 25 = 100000 + 2400 from rfl, Finset.sum_range_add,
    Finset.sum_eq_zero (s := Finset.range 2400) (fun y _ => hf (100000 + y) (Nat.le_add_right _ _)), add_zero]
  exact Finset.sum_range f

/-- The first-order term from the 25 blocks of the zero-continued arrays. -/
theorem lin_blocks (x : SX.Idx → EReal) (w : SW.Idx → EReal) (b : Fin 2048) :
    ∑ s ∈ Finset.range 25, ∑ κ : Fin 4096, xN x b.val (4096 * s + κ.val) * wN w (4096 * s + κ.val) 0 = lin x w b := by
  rw [sum_blocks (fun d => xN x b.val d * wN w d 0) (fun d hd => by rw [xN_of_ge x _ d hd, zero_mul])]
  exact Finset.sum_congr rfl fun d _ => by rw [xN_of_lt, ← wN_of_lt w d (0 : Fin 1)]; rfl

/-- The projection on factor j from the 25 blocks. -/
theorem cross_blocks (x : SX.Idx → EReal) (v : SV.Idx → EReal) (b : Fin 2048) (j : Fin 16) :
    ∑ s ∈ Finset.range 25, ∑ κ : Fin 4096, xN x b.val (4096 * s + κ.val) * vN v (4096 * s + κ.val) j.val = cross x v b j := by
  rw [sum_blocks (fun d => xN x b.val d * vN v d j.val) (fun d hd => by rw [xN_of_ge x _ d hd, zero_mul])]
  exact Finset.sum_congr rfl fun d _ => by rw [xN_of_lt, vN_of_lt]

/-- The sum of squared products on factor j from the 25 blocks. -/
theorem sqs_blocks (x : SX.Idx → EReal) (v : SV.Idx → EReal) (b : Fin 2048) (j : Fin 16) :
    ∑ s ∈ Finset.range 25, ∑ κ : Fin 4096,
        (xN x b.val (4096 * s + κ.val) * xN x b.val (4096 * s + κ.val)) * (vN v (4096 * s + κ.val) j.val * vN v (4096 * s + κ.val) j.val)
      = sqs x v b j := by
  rw [sum_blocks (fun d => (xN x b.val d * xN x b.val d) * (vN v d j.val * vN v d j.val))
    (fun d hd => by rw [xN_of_ge x _ d hd, zero_mul, zero_mul])]
  exact Finset.sum_congr rfl fun d _ => by rw [xN_of_lt, vN_of_lt]

end Cert.Fm

end
-- ==== Proof.FmRef.lean ====
/-
  The reference program's result is the score function G.

  Read one operation at a time, entry b of the reference's result is
    (x·w)(b,0) + ½ · (0 + ∑_j ((x·v)(b,j)·(x·v)(b,j) − (x²·v²)(b,j))),
  each matrix product a sum over d. The reshape of the [2048,1] product to [2048] reads row b at column 0.
-/
import proofs.«150377_j73907797229838_1_alg».proof.Proof.Gen.ReferenceIdeal.Read
import proofs.«150377_j73907797229838_1_alg».proof.Proof.FmSpec

noncomputable section

open scoped BigOperators

namespace Cert.Fm.Ref

open Cert.ReferenceIdeal Cert.ReferenceIdeal.Read Idealize.ShloMosaic Idealize.ShloMosaic.ValueIdx Cert.Fm

/-- The left operand of x·w, read for entry b of the reshaped result at contraction position d, is x(b,d). -/
theorem lidx0 (b : Fin 2048) (d : Fin 100000) : lidx_main_v0 (idx_main_v1 (ix1 b)) d = ix2 b d := by
  funext a; apply Fin.ext
  match a with
  | ⟨0, _⟩ => exact Nat.div_one _
  | ⟨1, _⟩ => rfl

/-- The right operand there is w(d,0). -/
theorem ridx0 (b : Fin 2048) (d : Fin 100000) : ridx_main_v0 (idx_main_v1 (ix1 b)) d = ix2 d (0 : Fin 1) := by
  funext a; apply Fin.ext
  match a with
  | ⟨0, _⟩ => rfl
  | ⟨1, _⟩ => rfl

/-- The operands of x·v for entry (b,j): x(b,d) and v(d,j). -/
theorem lidx2 (b : Fin 2048) (j : Fin 16) (d : Fin 100000) : lidx_main_v2 (idx_main_v8 (ix1 b) j) d = ix2 b d := by
  funext a; apply Fin.ext
  match a with
  | ⟨0, _⟩ => rfl
  | ⟨1, _⟩ => rfl

theorem ridx2 (b : Fin 2048) (j : Fin 16) (d : Fin 100000) : ridx_main_v2 (idx_main_v8 (ix1 b) j) d = ix2 d j := by
  funext a; apply Fin.ext
  match a with
  | ⟨0, _⟩ => rfl
  | ⟨1, _⟩ => rfl

/-- The operands of x²·v² for entry (b,j): the squares at (b,d) and (d,j). -/
theorem lidx6 (b : Fin 2048) (j : Fin 16) (d : Fin 100000) : lidx_main_v6 (idx_main_v8 (ix1 b) j) d = ix2 b d := by
  funext a; apply Fin.ext
  match a with
  | ⟨0, _⟩ => rfl
  | ⟨1, _⟩ => rfl

theorem ridx6 (b : Fin 2048) (j : Fin 16) (d : Fin 100000) : ridx_main_v6 (idx_main_v8 (ix1 b) j) d = ix2 d j := by
  funext a; apply Fin.ext
  match a with
  | ⟨0, _⟩ => rfl
  | ⟨1, _⟩ => rfl

/-- The reference's last stage is G: the host's sum from the zero initial value is the plain sum over the 16 factors. -/
theorem result_eq (x0 : SX.Idx → EReal) (x1 : SW.Idx → EReal) (x2 : SV.Idx → EReal) :
    val_main_v11 (F := Ideal) x0 x1 x2 = G x0 x1 x2 := by
  funext i
  obtain ⟨b, rfl⟩ : ∃ b : Fin 2048, i = ix1 b := ⟨i 0, eq_ix1 i⟩
  rw [val_main_v11_apply, val_main_v1_apply, val_main_v0_apply, val_main_v10_apply, val_main_v9_apply,
    val_main_cst_0_apply, val_main_v8_apply, val_main_cst_apply]
  simp only [val_main_v7_apply, val_main_v3_apply, val_main_v2_apply, val_main_v6_apply, val_main_v4_apply,
    val_main_v5_apply, lidx0, ridx0, lidx2, ridx2, lidx6, ridx6, Ideal.addf_def, Ideal.mulf_def, Ideal.subf_def,
    Ideal.ofBits_def, Ideal.ofBits_zero_f32, zero_add]
  rfl

end Cert.Fm.Ref

end
-- ==== Proof.FmPieces.lean ====
/-
  What one run of the kernel body leaves in its three accumulators and in its output block, case by case.

  At the first block of a row tile (the reset case) each accumulator is zeroed and then receives the block's partial
  product: lin ← 0 + x·w, acc_v ← 0 + x·v, acc_vsq ← 0 + x²·v². At every later block it receives its previous contents plus
  the block's partial product. At the last block the output block is computed from the three accumulators as they stand
  AFTER that block's update: out = lin[:,0] + ½·∑_j (acc_v² − acc_vsq).
  Each statement holds for any float instance: it only reads stores back through whole-buffer rectangles.
-/
import proofs.«150377_j73907797229838_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]
variable (c : Dev nD) (i : grid0.Coords)
  (arg2 : Memref sig .tc .vmem S512x4096 .f32) (harg2 : arg2.IsWhole) (arg3 : Memref sig .tc .vmem S4096x1 .bf16) (harg3 : arg3.IsWhole)
  (arg4 : Memref sig .tc .vmem S4096x16 .bf16) (harg4 : arg4.IsWhole) (arg5 : Memref sig .tc .vmem S4096x16 .bf16) (harg5 : arg5.IsWhole)
  (arg6 : Memref sig .tc .vmem S512 .f32) (harg6 : arg6.IsWhole) (arg7 : Memref sig .tc .vmem S512x1 .f32) (harg7 : arg7.IsWhole)
  (arg8 : Memref sig .tc .vmem S512x16 .f32) (harg8 : arg8.IsWhole) (arg9 : Memref sig .tc .vmem S512x16 .f32) (harg9 : arg9.IsWhole)

theorem hz2 : (![0, 0] : Fin 2 → Nat) = fun _ => 0 := funext fun a => by fin_cases a <;> rfl
theorem hz1 : (![0] : Fin 1 → Nat) = fun _ => 0 := funext fun a => by fin_cases a <;> rfl

/-- Reset case, first-order accumulator: zero, then plus the block's x·w. -/
theorem first_0 (hc0 : cond0_0 i) (hc1 : ¬cond0_1 i) (x0 : Vec F S512x4096 .f32) (x1 : Vec F S4096x1 .bf16) (x2 : Vec F S4096x16 .bf16) (x3 : Vec F S4096x16 .bf16) :
    sout0_A_0 c i arg2 harg2 arg3 harg3 arg4 harg4 arg5 harg5 arg6 harg6 arg7 harg7 arg8 harg8 arg9 harg9 hc0 hc1 x0 x1 x2 x3 = k0_pay7 x0 k0_pay3 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz2]
  simp only [View.readAt_eq_ld, harg2.read_unread, harg3.read_unread, harg4.read_unread, harg5.read_unread, harg7.read_unread, harg8.read_unread, harg9.read_unread,
    View.ld_unit_zero (S := S512x4096) hz2, View.ld_unit_zero (S := S4096x1) hz2, View.ld_unit_zero (S := S4096x16) hz2,
    View.ld_unit_zero (S := S512x1) hz2, View.ld_unit_zero (S := S512x16) hz2, View.readCov_unit_zero (S := S512x1) _ hz2]

/-- Reset case, projection accumulator: zero, then plus the block's x·v. -/
theorem first_1 (hc0 : cond0_0 i) (hc1 : ¬cond0_1 i) (x0 : Vec F S512x4096 .f32) (x1 : Vec F S4096x1 .bf16) (x2 : Vec F S4096x16 .bf16) (x3 : Vec F S4096x16 .bf16) :
    sout0_A_1 c i arg2 harg2 arg3 harg3 arg4 harg4 arg5 harg5 arg6 harg6 arg7 harg7 arg8 harg8 arg9 harg9 hc0 hc1 x0 x1 x2 x3 = k0_pay8 x0 k0_pay4 x2 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x16) hz2]
  simp only [View.readAt_eq_ld, harg2.read_unread, harg3.read_unread, harg4.read_unread, harg5.read_unread, harg7.read_unread, harg8.read_unread, harg9.read_unread,
    View.ld_unit_zero (S := S512x4096) hz2, View.ld_unit_zero (S := S4096x1) hz2, View.ld_unit_zero (S := S4096x16) hz2,
    View.ld_unit_zero (S := S512x1) hz2, View.ld_unit_zero (S := S512x16) hz2, View.readCov_unit_zero (S := S512x16) _ hz2]

/-- Reset case, squares accumulator: zero, then plus the block's x²·v². -/
theorem first_2 (hc0 : cond0_0 i) (hc1 : ¬cond0_1 i) (x0 : Vec F S512x4096 .f32) (x1 : Vec F S4096x1 .bf16) (x2 : Vec F S4096x16 .bf16) (x3 : Vec F S4096x16 .bf16) :
    sout0_A_2 c i arg2 harg2 arg3 harg3 arg4 harg4 arg5 harg5 arg6 harg6 arg7 harg7 arg8 harg8 arg9 harg9 hc0 hc1 x0 x1 x2 x3 = k0_pay1 (k0_pay9 x0 k0_pay5 x3) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x16) hz2]
  simp only [View.readAt_eq_ld, harg2.read_unread, harg3.read_unread, harg4.read_unread, harg5.read_unread, harg7.read_unread, harg8.read_unread, harg9.read_unread,
    View.ld_unit_zero (S := S512x4096) hz2, View.ld_unit_zero (S := S4096x1) hz2, View.ld_unit_zero (S := S4096x16) hz2,
    View.ld_unit_zero (S := S512x1) hz2, View.ld_unit_zero (S := S512x16) hz2, View.readCov_unit_zero (S := S512x16) _ hz2]

/-- Middle case, first-order accumulator: previous contents plus the block's x·w. -/
theorem mid_0 (hc0 : ¬cond0_0 i) (hc1 : ¬cond0_1 i) (x0 : Vec F S512x4096 .f32) (x1 : Vec F S4096x1 .bf16) (x2 : Vec F S4096x16 .bf16) (x3 : Vec F S4096x16 .bf16) (xs0 : Vec F S512x1 .f32) (xs1 : Vec F S512x16 .f32) (xs2 : Vec F S512x16 .f32) :
    sout0_B_0 c i arg2 harg2 arg3 harg3 arg4 harg4 arg5 harg5 arg6 harg6 arg7 harg7 arg8 harg8 arg9 harg9 hc0 hc1 x0 x1 x2 x3 xs0 xs1 xs2 = k0_pay7 x0 xs0 x1 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S512x1) hz2]
  simp only [View.readAt_eq_ld, harg2.read_unread, harg3.read_unread, harg4.read_unread, harg5.read_unread, harg7.read_unread, harg8.read_unread, harg9.read_unread,
    View.ld_unit_zero (S := S512x4096) hz2, View.ld_unit_zero (S := S4096x1) hz2, View.ld_unit_zero (S := S4096x16) hz2,
    View.ld_unit_zero (S := S512x1) hz2, View.ld_unit_zero (S := S512x16) hz2]

/-- Middle case, projection accumulator: previous contents plus the block's x·v. -/
theorem mid_1 (hc0 : ¬cond0_0 i) (hc1 : ¬cond0_1 i) (x0 : Vec F S512x4096 .f32) (x1 : Vec F S4096x1 .bf16) (x2 : Vec F S4096x16 .bf16) (x3 : Vec F S4096x16 .bf16) (xs0 : Vec F S512x1 .f32) (xs1 : Vec F S512x16 .f32) (xs2 : Vec F S512x16 .f32) :
    sout0_B_1 c i arg2 harg2 arg3 harg3 arg4 harg4 arg5 harg5 arg6 harg6 arg7 harg7 arg8 harg8 arg9 harg9 hc0 hc1 x0 x1 x2 x3 xs0 xs1 xs2 = k0_pay8 x0 xs1 x2 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S512x16) hz2]
  simp only [View.readAt_eq_ld, harg2.read_unread, harg3.read_unread, harg4.read_unread, harg5.read_unread, harg7.read_unread, harg8.read_unread, harg9.read_unread,
    View.ld_unit_zero (S := S512x4096) hz2, View.ld_unit_zero (S := S4096x1) hz2, View.ld_unit_zero (S := S4096x16) hz2,
    View.ld_unit_zero (S := S512x1) hz2, View.ld_unit_zero (S := S512x16) hz2]

/-- Middle case, squares accumulator: previous contents plus the block's x²·v². -/
theorem mid_2 (hc0 : ¬cond0_0 i) (hc1 : ¬cond0_1 i) (x0 : Vec F S512x4096 .f32) (x1 : Vec F S4096x1 .bf16) (x2 : Vec F S4096x16 .bf16) (x3 : Vec F S4096x16 .bf16) (xs0 : Vec F S512x1 .f32) (xs1 : Vec F S512x16 .f32) (xs2 : Vec F S512x16 .f32) :
    sout0_B_2 c i arg2 harg2 arg3 harg3 arg4 harg4 arg5 harg5 arg6 harg6 arg7 harg7 arg8 harg8 arg9 harg9 hc0 hc1 x0 x1 x2 x3 xs0 xs1 xs2 = k0_pay1 (k0_pay9 x0 xs2 x3) := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S512x16) hz2]
  simp only [View.readAt_eq_ld, harg2.read_unread, harg3.read_unread, harg4.read_unread, harg5.read_unread, harg7.read_unread, harg8.read_unread, harg9.read_unread,
    View.ld_unit_zero (S := S512x4096) hz2, View.ld_unit_zero (S := S4096x1) hz2, View.ld_unit_zero (S := S4096x16) hz2,
    View.ld_unit_zero (S := S512x1) hz2, View.ld_unit_zero (S := S512x16) hz2]

/-- Last case, first-order accumulator: as in the middle case. -/
theorem last_0 (hc0 : ¬cond0_0 i) (hc1 : cond0_1 i) (x0 : Vec F S512x4096 .f32) (x1 : Vec F S4096x1 .bf16) (x2 : Vec F S4096x16 .bf16) (x3 : Vec F S4096x16 .bf16) (xs0 : Vec F S512x1 .f32) (xs1 : Vec F S512x16 .f32) (xs2 : Vec F S512x16 .f32) :
    sout0_C_0 c i arg2 harg2 arg3 harg3 arg4 harg4 arg5 harg5 arg6 harg6 arg7 harg7 arg8 harg8 arg9 harg9 hc0 hc1 x0 x1 x2 x3 xs0 xs1 xs2 = k0_pay7 x0 xs0 x1 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S512x1) hz2]
  simp only [View.readAt_eq_ld, harg2.read_unread, harg3.read_unread, harg4.read_unread, harg5.read_unread, harg7.read_unread, harg8.read_unread, harg9.read_unread,
    View.ld_unit_zero (S := S512x4096) hz2, View.ld_unit_zero (S := S4096x1) hz2, View.ld_unit_zero (S := S4096x16) hz2,
    View.ld_unit_zero (S := S512x1) hz2, View.ld_unit_zero (S := S512x16) hz2]

/-- Last case, projection accumulator: as in the middle case. -/
theorem last_1 (hc0 : ¬cond0_0 i) (hc1 : cond0_1 i) (x0 : Vec F S512x4096 .f32) (x1 : Vec F S4096x1 .bf16) (x2 : Vec F S4096x16 .bf16) (x3 : Vec F S4096x16 .bf16) (xs0 : Vec F S512x1 .f32) (xs1 : Vec F S512x16 .f32) (xs2 : Vec F S512x16 .f32) :
    sout0_C_1 c i arg2 harg2 arg3 harg3 arg4 harg4 arg5 harg5 arg6 harg6 arg7 harg7 arg8 harg8 arg9 harg9 hc0 hc1 x0 x1 x2 x3 xs0 xs1 xs2 = k0_pay8 x0 xs1 x2 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S512x16) hz2]
  simp only [View.readAt_eq_ld, harg2.read_unread, harg3.read_unread, harg4.read_unread, harg5.read_unread, harg7.read_unread, harg8.read_unread, harg9.read_unread,
    View.ld_unit_zero (S := S512x4096) hz2, View.ld_unit_zero (S := S4096x1) hz2, View.ld_unit_zero (S := S4096x16) hz2,
    View.ld_unit_zero (S := S512x1) hz2, View.ld_unit_zero (S := S512x16) hz2]

/-- Last case, squares accumulator: as in the middle case. -/
theorem last_2 (hc0 : ¬cond0_0 i) (hc1 : cond0_1 i) (x0 : Vec F S512x4096 .f32) (x1 : Vec F S4096x1 .bf16) (x2 : Vec F S4096x16 .bf16) (x3 : Vec F S4096x16 .bf16) (xs0 : Vec F S512x1 .f32) (xs1 : Vec F S512x16 .f32) (xs2 : Vec F S512x16 .f32) :
    sout0_C_2 c i arg2 harg2 arg3 harg3 arg4 harg4 arg5 harg5 arg6 harg6 arg7 harg7 arg8 harg8 arg9 harg9 hc0 hc1 x0 x1 x2 x3 xs0 xs1 xs2 = k0_pay1 (k0_pay9 x0 xs2 x3) := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S512x16) hz2]
  simp only [View.readAt_eq_ld, harg2.read_unread, harg3.read_unread, harg4.read_unread, harg5.read_unread, harg7.read_unread, harg8.read_unread, harg9.read_unread,
    View.ld_unit_zero (S := S512x4096) hz2, View.ld_unit_zero (S := S4096x1) hz2, View.ld_unit_zero (S := S4096x16) hz2,
    View.ld_unit_zero (S := S512x1) hz2, View.ld_unit_zero (S := S512x16) hz2]

/-- Last case, the output block: the epilogue of the three accumulators as updated at this very block (each load
    after a store reads that store's payload back). -/
theorem last_out (hc0 : ¬cond0_0 i) (hc1 : cond0_1 i) (x0 : Vec F S512x4096 .f32) (x1 : Vec F S4096x1 .bf16) (x2 : Vec F S4096x16 .bf16) (x3 : Vec F S4096x16 .bf16) (xs0 : Vec F S512x1 .f32) (xs1 : Vec F S512x16 .f32) (xs2 : Vec F S512x16 .f32) :
    out0_C_4 c i arg2 harg2 arg3 harg3 arg4 harg4 arg5 harg5 arg6 harg6 arg7 harg7 arg8 harg8 arg9 harg9 hc0 hc1 x0 x1 x2 x3 xs0 xs1 xs2
      = k0_pay2 (k0_pay7 x0 xs0 x1) (k0_pay8 x0 xs1 x2) (k0_pay8 x0 xs1 x2) (k0_pay1 (k0_pay9 x0 xs2 x3)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S512) hz1]
  simp only [View.readAt_eq_ld, harg2.read_unread, harg3.read_unread, harg4.read_unread, harg5.read_unread, harg7.read_unread, harg8.read_unread, harg9.read_unread,
    View.ld_unit_zero (S := S512x4096) hz2, View.ld_unit_zero (S := S4096x1) hz2, View.ld_unit_zero (S := S4096x16) hz2,
    View.ld_unit_zero (S := S512x1) hz2, View.ld_unit_zero (S := S512x16) hz2, View.readCov_unit_zero (S := S512x1) _ hz2, View.readCov_unit_zero (S := S512x16) _ hz2]

end Cert.KernelIdeal.Pieces

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.FmPayload.lean ====
/-
  The body's arithmetic read entry by entry on the extended reals.

  One accumulator update at entry (r, q): the previous entry plus ∑_κ X(r,κ)·B(κ,q), the sum over the 4096 contracted
  positions of the block (the change of format of the operands is the identity, and the matrix product starts from the
  zero accumulator). For the squares accumulator the left factor is X(r,κ)·X(r,κ).
  The epilogue at row r: S0(r,0) + ½·∑_j (S1(r,j)·S1'(r,j) − S2(r,j)), the lane sum over the 16 factors.
-/
import proofs.«150377_j73907797229838_1_alg».proof.Proof.Gen.KernelIdeal.Skeleton
import proofs.«150377_j73907797229838_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The [512,4096]·[4096,1] product contracts the left axis 1 with the right axis 0 and has no batch axes. -/
theorem plain1 : PlainDot.IsPlain dot_S512x4096_S4096x1_S512x1_1_0_0_1_n_n := ⟨rfl, rfl, rfl, rfl, rfl, rfl⟩

/-- So does the [512,4096]·[4096,16] product. -/
theorem plain16 : PlainDot.IsPlain dot_S512x4096_S4096x16_S512x16_1_0_0_1_n_n := ⟨rfl, rfl, rfl, rfl, rfl, rfl⟩

/-- The first-order update at (r, q): the previous entry plus ∑_κ X(r,κ)·B(κ,q). -/
theorem linUpd_apply (X : FVec Ideal S512x4096 .f32) (acc : FVec Ideal S512x1 .f32) (B : FVec Ideal S4096x1 .bf16)
    (r : Fin 512) (q : Fin 1) :
    k0_pay7 (F := Ideal) X acc B (ix2 r q) = acc (ix2 r q) + ∑ κ : Fin 4096, X (ix2 r κ) * B (ix2 κ q) := by
  unfold k0_pay7 k0_pay6
  simp only [shapeCast_self]
  exact congrArg (acc (ix2 r q) + ·)
    (PlainDot.matmul_zero_plain dot_S512x4096_S4096x1_S512x1_1_0_0_1_n_n plain1 none _ B r q)

/-- The projection update at (r, j): the previous entry plus ∑_κ X(r,κ)·B(κ,j). -/
theorem crossUpd_apply (X : FVec Ideal S512x4096 .f32) (acc : FVec Ideal S512x16 .f32) (B : FVec Ideal S4096x16 .bf16)
    (r : Fin 512) (j : Fin 16) :
    k0_pay8 (F := Ideal) X acc B (ix2 r j) = acc (ix2 r j) + ∑ κ : Fin 4096, X (ix2 r κ) * B (ix2 κ j) := by
  unfold k0_pay8 k0_pay6
  simp only [shapeCast_self]
  exact congrArg (acc (ix2 r j) + ·)
    (PlainDot.matmul_zero_plain dot_S512x4096_S4096x16_S512x16_1_0_0_1_n_n plain16 none _ B r j)

/-- The squares update at (r, j): the previous entry plus ∑_κ (X(r,κ)·X(r,κ))·B(κ,j). -/
theorem sqsUpd_apply (X : FVec Ideal S512x4096 .f32) (acc : FVec Ideal S512x16 .f32) (B : FVec Ideal S4096x16 .bf16)
    (r : Fin 512) (j : Fin 16) :
    k0_pay1 (F := Ideal) (k0_pay9 (F := Ideal) X acc B) (ix2 r j)
      = acc (ix2 r j) + ∑ κ : Fin 4096, (X (ix2 r κ) * X (ix2 r κ)) * B (ix2 κ j) := by
  unfold k0_pay1 k0_pay9 k0_pay6
  simp only [shapeCast_self]
  exact congrArg (acc (ix2 r j) + ·)
    (PlainDot.matmul_zero_plain dot_S512x4096_S4096x16_S512x16_1_0_0_1_n_n plain16 none _ B r j)

/-- The zero blocks the reset stores read 0 at every entry. -/
theorem zero1_apply (y : S512x1.Idx) : (k0_pay3 (F := Ideal)) y = 0 := by
  unfold k0_pay3
  simp only [shapeCast_self]
  exact Ideal.ofBits_zero_f32

theorem zero16a_apply (y : S512x16.Idx) : (k0_pay4 (F := Ideal)) y = 0 := by
  unfold k0_pay4
  simp only [shapeCast_self]
  exact Ideal.ofBits_zero_f32

theorem zero16b_apply (y : S512x16.Idx) : (k0_pay5 (F := Ideal)) y = 0 := by
  unfold k0_pay5
  simp only [shapeCast_self]
  exact Ideal.ofBits_zero_f32

/-- The lane sum over the 16 factors with its neutral accumulator, at row r. -/
theorem laneSum_apply (src : FVec Ideal S512x16 .f32) (hφ : FKind.Formats .f32)
    (hacc : (0x00000000#32 : BitVec 32) = FKind.add.neutral .f32 hφ) (r : Fin 512) :
    multiReduction (F := Ideal) .add [1] S512 src 0x00000000#32 reduces_S512x16_S512 hφ hacc (ix1 r)
      = ∑ j : Fin 16, src (ix2 r j) := by
  refine (Ideal.multiReduction_add_single src 0x00000000#32 reduces_S512x16_S512 hφ hacc (ix1 r)).trans ?_
  exact Finset.sum_congr rfl fun j _ => congrArg src (funext fun a => Fin.ext (by
    match a with
    | ⟨0, _⟩ => rfl
    | ⟨1, _⟩ => rfl))

/-- The epilogue at row r: S0(r,0) + ½·∑_j (S1(r,j)·S1'(r,j) − S2(r,j)). -/
theorem epilogue_apply (S0 : FVec Ideal S512x1 .f32) (S1 S1' S2 : FVec Ideal S512x16 .f32) (r : Fin 512) :
    k0_pay2 (F := Ideal) S0 S1 S1' S2 (ix1 r)
      = S0 (ix2 r (0 : Fin 1)) + Ideal.ofBits .f32 0x3F000000#32 * ∑ j : Fin 16, (S1 (ix2 r j) * S1' (ix2 r j) - S2 (ix2 r j)) := by
  unfold k0_pay2
  have e0 : shapeCast S512 S0 shapeCasts_S512x1_S512 (ix1 r) = S0 (ix2 r (0 : Fin 1)) :=
    shapeCast_apply S0 shapeCasts_S512x1_S512 (ix1 r) (ix2 r (0 : Fin 1))
      (by rewrite [Shape.rowMajor_val_two, Shape.rowMajor_val_one]; show r.val * 1 + 0 = r.val; omega)
  have e1 := laneSum_apply (subf (mulf S1 S1') S2) (.inl rfl) rfl r
  show shapeCast S512 S0 shapeCasts_S512x1_S512 (ix1 r) + Ideal.ofBits .f32 0x3F000000#32 * multiReduction (F := Ideal) .add [1] S512 (subf (mulf S1 S1') S2) 0x00000000#32 reduces_S512x16_S512 (.inl rfl) rfl (ix1 r) = _
  rw [e0, e1]
  rfl

end Cert.KernelIdeal.Payload

end
-- ==== Proof.FmBlocks.lean ====
/-
  The arrays the kernel's windows read, and their blocks entry by entry.

  Before the kernel runs, the host pads x along its columns and w, v along their rows with zeros up to 102400, takes
  the squares of the padded v, and changes w, v and v² to the narrow format (the identity on the extended reals).
  Window 0's block at grid point t = (i, k), t = 25·i + k, is rows 512·i … 512·i+511 and columns 4096·k … 4096·k+4095
  of the padded x; windows 1, 2, 3 take rows 4096·k … 4096·k+4095 of the padded w, v and v². So, with the arrays
  continued by zero, entry (r, κ) of x's block is x(512·i + r, 4096·k + κ), and entry (κ, q) of the others is
  w(4096·k + κ, q), v(4096·k + κ, j), v(4096·k + κ, j)².
-/
import proofs.«150377_j73907797229838_1_alg».proof.Proof.Gen.KernelIdeal.Frame
import proofs.«150377_j73907797229838_1_alg».proof.Proof.FmSpec
import Idealize.ShloMosaic.Lib.Pipeline.Value
import Idealize.ShloMosaic.Lib.StableHlo.Run
import Idealize.ShloMosaic.Lib.KernelVsHost
import Idealize.ShloMosaic.Lib.Tactic

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-- The padding value: the integer zero converted, the float zero. -/
abbrev padZero : (⟨S_, .f32⟩ : BufTy).Contents (Elt Ideal) := sitofp (F := Ideal) .f32 (constantI S_ 32 0#32)

theorem padZero_apply (y : S_.Idx) : padZero y = 0 := sitofp_zero (φ := .f32)

/-- x padded along its columns. -/
abbrev xPad (c : Dev nD) : FVec Ideal S2048x102400 .f32 :=
  pad S2048x102400 ![0, 0] ![0, 2400] ![0, 0] (m ((c : Thread nD τ).loc main_arg0)) padZero pads_S2048x100000_S2048x102400_000_024000 h_S_

/-- w padded along its rows. -/
abbrev wPad (c : Dev nD) : FVec Ideal S102400x1 .f32 :=
  pad S102400x1 ![0, 0] ![2400, 0] ![0, 0] (m ((c : Thread nD τ).loc main_arg1)) padZero pads_S100000x1_S102400x1_024000_000 h_S_

/-- v padded along its rows. -/
abbrev vPad (c : Dev nD) : FVec Ideal S102400x16 .f32 :=
  pad S102400x16 ![0, 0] ![2400, 0] ![0, 0] (m ((c : Thread nD τ).loc main_arg2)) padZero pads_S100000x16_S102400x16_024000_000 h_S_

/-! ## What the region finds in the four arrays its windows read -/

theorem V_x (c : Dev nD) : (V m c main_v0 : S2048x102400.Idx → EReal) = xPad m c := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_w (c : Dev nD) : (V m c main_v3 : S102400x1.Idx → EReal) = truncf (F := Ideal) .bf16 (wPad m c) bitsLt_bf16_f32 := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_v (c : Dev nD) : (V m c main_v4 : S102400x16.Idx → EReal) = truncf (F := Ideal) .bf16 (vPad m c) bitsLt_bf16_f32 := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_vsq (c : Dev nD) : (V m c main_v6 : S102400x16.Idx → EReal) = truncf (F := Ideal) .bf16 (mulf (vPad m c) (vPad m c)) bitsLt_bf16_f32 := by
  dsimp only [V]
  simp only [hostOps0, hostOps0_1, hostOps0_2, hostOps0_3, hostOps0_4, hostOps0_5, hostOps0_6, List.flatten_cons, List.flatten_nil, List.append_nil, List.cons_append, List.nil_append]
  after_results
  rfl

/-! ## The padded arrays are the arrays continued by zero -/

theorem xPad_apply (c : Dev nD) (b : Fin 2048) (d : Fin 102400) :
    xPad m c (ix2 b d) = Fm.xN (m ((c : Thread nD τ).loc main_arg0)) b.val d.val := by
  by_cases hd : d.val < 100000
  · refine (pad_apply_of_inside _ _ _ _ _ _ h_S_ (ix2 b d) (ix2 b (⟨d.val, hd⟩ : Fin 100000)) ?_).trans ?_
    · intro a
      match a with
      | ⟨0, _⟩ => show b.val = 0 + b.val * (0 + 1); omega
      | ⟨1, _⟩ => show d.val = 0 + d.val * (0 + 1); omega
    · unfold Fm.xN; rw [dif_pos ⟨b.isLt, hd⟩]
  · refine (pad_apply_of_not_inside _ _ _ _ _ _ h_S_ (ix2 b d) (1 : Fin 2) ?_).trans ?_
    · intro h
      have h3 : (d.val - 0) / (0 + 1) < 100000 := h.2.2
      rw [Nat.sub_zero, Nat.div_one] at h3
      exact hd h3
    · rw [padZero_apply, Fm.xN_of_ge _ _ _ (Nat.le_of_not_lt hd)]

theorem wPad_apply (c : Dev nD) (d : Fin 102400) (q : Fin 1) :
    wPad m c (ix2 d q) = Fm.wN (m ((c : Thread nD τ).loc main_arg1)) d.val q.val := by
  by_cases hd : d.val < 100000
  · refine (pad_apply_of_inside _ _ _ _ _ _ h_S_ (ix2 d q) (ix2 (⟨d.val, hd⟩ : Fin 100000) q) ?_).trans ?_
    · intro a
      match a with
      | ⟨0, _⟩ => show d.val = 0 + d.val * (0 + 1); omega
      | ⟨1, _⟩ => show q.val = 0 + q.val * (0 + 1); omega
    · unfold Fm.wN; rw [dif_pos ⟨hd, q.isLt⟩]
  · refine (pad_apply_of_not_inside _ _ _ _ _ _ h_S_ (ix2 d q) (0 : Fin 2) ?_).trans ?_
    · intro h
      have h3 : (d.val - 0) / (0 + 1) < 100000 := h.2.2
      rw [Nat.sub_zero, Nat.div_one] at h3
      exact hd h3
    · rw [padZero_apply, Fm.wN_of_ge _ _ _ (Nat.le_of_not_lt hd)]

theorem vPad_apply (c : Dev nD) (d : Fin 102400) (j : Fin 16) :
    vPad m c (ix2 d j) = Fm.vN (m ((c : Thread nD τ).loc main_arg2)) d.val j.val := by
  by_cases hd : d.val < 100000
  · refine (pad_apply_of_inside _ _ _ _ _ _ h_S_ (ix2 d j) (ix2 (⟨d.val, hd⟩ : Fin 100000) j) ?_).trans ?_
    · intro a
      match a with
      | ⟨0, _⟩ => show d.val = 0 + d.val * (0 + 1); omega
      | ⟨1, _⟩ => show j.val = 0 + j.val * (0 + 1); omega
    · unfold Fm.vN; rw [dif_pos ⟨hd, j.isLt⟩]
  · refine (pad_apply_of_not_inside _ _ _ _ _ _ h_S_ (ix2 d j) (0 : Fin 2) ?_).trans ?_
    · intro h
      have h3 : (d.val - 0) / (0 + 1) < 100000 := h.2.2
      rw [Nat.sub_zero, Nat.div_one] at h3
      exact hd h3
    · rw [padZero_apply, Fm.vN_of_ge _ _ _ (Nat.le_of_not_lt hd)]

/-! ## The windows' index maps in closed form, and the blocks entry by entry -/

theorem index0 : ∀ t : Fin cfg0.N, win0_0.index t 0 = t.val / 25 ∧ win0_0.index t 1 = t.val % 25 :=
  (by decide +kernel : ∀ t : Fin grid0.N, _)

theorem index1 : ∀ t : Fin cfg0.N, win0_1.index t 0 = t.val % 25 ∧ win0_1.index t 1 = 0 :=
  (by decide +kernel : ∀ t : Fin grid0.N, _)

theorem index2 : ∀ t : Fin cfg0.N, win0_2.index t 0 = t.val % 25 ∧ win0_2.index t 1 = 0 :=
  (by decide +kernel : ∀ t : Fin grid0.N, _)

theorem index3 : ∀ t : Fin cfg0.N, win0_3.index t 0 = t.val % 25 ∧ win0_3.index t 1 = 0 :=
  (by decide +kernel : ∀ t : Fin grid0.N, _)

/-- Entry (r, κ) of x's block at point t is x(512·(t/25) + r, 4096·(t%25) + κ), zero past column 100000. -/
theorem xblk_apply (c : Dev nD) (t : Fin cfg0.N) (r : Fin 512) (κ : Fin 4096) :
    (iblk m c 0 t : FVec Ideal S512x4096 .f32) (ix2 r κ)
      = Fm.xN (m ((c : Thread nD τ).loc main_arg0)) (512 * (t.val / 25) + r.val) (4096 * (t.val % 25) + κ.val) := by
  obtain ⟨h0, h1⟩ := index0 t
  have hN : t.val < 100 := lt_of_lt_of_eq t.isLt N_0
  have hb : 512 * (t.val / 25) + r.val < 2048 := by omega
  have hd : 4096 * (t.val % 25) + κ.val < 102400 := by omega
  unfold iblk
  rw [View.read_apply]
  show V m c main_v0 _ = _
  rw [V_x]
  refine (congrArg (xPad m c) (?_ : _ = ix2 (⟨_, hb⟩ : Fin 2048) (⟨_, hd⟩ : Fin 102400))).trans (xPad_apply m c _ _)
  funext a; apply Fin.ext
  match a with
  | ⟨0, _⟩ => show win0_0.index t 0 * 512 + 1 * r.val = 512 * (t.val / 25) + r.val; rw [h0]; omega
  | ⟨1, _⟩ => show win0_0.index t 1 * 4096 + 1 * κ.val = 4096 * (t.val % 25) + κ.val; rw [h1]; omega

/-- Entry (κ, q) of w's block at point t is w(4096·(t%25) + κ, q), zero past row 100000. -/
theorem wblk_apply (c : Dev nD) (t : Fin cfg0.N) (κ : Fin 4096) (q : Fin 1) :
    (iblk m c 1 t : FVec Ideal S4096x1 .bf16) (ix2 κ q)
      = Fm.wN (m ((c : Thread nD τ).loc main_arg1)) (4096 * (t.val % 25) + κ.val) q.val := by
  obtain ⟨h0, h1⟩ := index1 t
  have hd : 4096 * (t.val % 25) + κ.val < 102400 := by omega
  unfold iblk
  rw [View.read_apply]
  show V m c main_v3 _ = _
  rw [V_w]
  refine (congrArg (wPad m c) (?_ : _ = ix2 (⟨_, hd⟩ : Fin 102400) q)).trans (wPad_apply m c _ _)
  funext a; apply Fin.ext
  match a with
  | ⟨0, _⟩ => show win0_1.index t 0 * 4096 + 1 * κ.val = 4096 * (t.val % 25) + κ.val; rw [h0]; omega
  | ⟨1, _⟩ => show win0_1.index t 1 * 1 + 1 * q.val = q.val; rw [h1]; omega

/-- Entry (κ, j) of v's block at point t is v(4096·(t%25) + κ, j), zero past row 100000. -/
theorem vblk_apply (c : Dev nD) (t : Fin cfg0.N) (κ : Fin 4096) (j : Fin 16) :
    (iblk m c 2 t : FVec Ideal S4096x16 .bf16) (ix2 κ j)
      = Fm.vN (m ((c : Thread nD τ).loc main_arg2)) (4096 * (t.val % 25) + κ.val) j.val := by
  obtain ⟨h0, h1⟩ := index2 t
  have hd : 4096 * (t.val % 25) + κ.val < 102400 := by omega
  unfold iblk
  rw [View.read_apply]
  show V m c main_v4 _ = _
  rw [V_v]
  refine (congrArg (vPad m c) (?_ : _ = ix2 (⟨_, hd⟩ : Fin 102400) j)).trans (vPad_apply m c _ _)
  funext a; apply Fin.ext
  match a with
  | ⟨0, _⟩ => show win0_2.index t 0 * 4096 + 1 * κ.val = 4096 * (t.val % 25) + κ.val; rw [h0]; omega
  | ⟨1, _⟩ => show win0_2.index t 1 * 16 + 1 * j.val = j.val; rw [h1]; omega

/-- Entry (κ, j) of the squares' block at point t is v(4096·(t%25) + κ, j)², zero past row 100000. -/
theorem vsqblk_apply (c : Dev nD) (t : Fin cfg0.N) (κ : Fin 4096) (j : Fin 16) :
    (iblk m c 3 t : FVec Ideal S4096x16 .bf16) (ix2 κ j)
      = Fm.vN (m ((c : Thread nD τ).loc main_arg2)) (4096 * (t.val % 25) + κ.val) j.val
        * Fm.vN (m ((c : Thread nD τ).loc main_arg2)) (4096 * (t.val % 25) + κ.val) j.val := by
  obtain ⟨h0, h1⟩ := index3 t
  have hd : 4096 * (t.val % 25) + κ.val < 102400 := by omega
  unfold iblk
  rw [View.read_apply]
  show V m c main_v6 _ = _
  rw [V_vsq]
  have e := vPad_apply m c (⟨_, hd⟩ : Fin 102400) j
  refine (congrArg (fun y => vPad m c y * vPad m c y) (?_ : _ = ix2 (⟨_, hd⟩ : Fin 102400) j)).trans (by rw [e])
  funext a; apply Fin.ext
  match a with
  | ⟨0, _⟩ => show win0_3.index t 0 * 4096 + 1 * κ.val = 4096 * (t.val % 25) + κ.val; rw [h0]; omega
  | ⟨1, _⟩ => show win0_3.index t 1 * 16 + 1 * j.val = j.val; rw [h1]; omega

end Cert.KernelIdeal.Blocks
end
-- ==== Proof.FmFold.lean ====
/-
  The kernel's result array.

  Grid point t = 25·i + k handles row tile i (rows 512·i … 512·i+511) and column block k. Each accumulator is reset at
  k = 0 and receives one block's partial product per point, so after point t it holds, at (r, q),
      0 + ∑_{s ≤ k} ∑_κ x(512·i + r, 4096·s + κ) · B(4096·s + κ, q)
  with B one of w, v, v² (and x replaced by x² for the last) — the arrays continued by zero. At k = 24 the 25 partial sums
  are the whole sums over d, the epilogue makes row 512·i + r of the score, and that block is written back; the four
  written blocks tile the 2048 rows.
-/
import proofs.«150377_j73907797229838_1_alg».proof.Proof.Gen.KernelIdeal.Value
import proofs.«150377_j73907797229838_1_alg».proof.Proof.FmSpec
import proofs.«150377_j73907797229838_1_alg».proof.Proof.FmPieces
import proofs.«150377_j73907797229838_1_alg».proof.Proof.FmPayload
import proofs.«150377_j73907797229838_1_alg».proof.Proof.FmBlocks

noncomputable section

open scoped BigOperators

open Idealize.ShloMosaic Idealize.ShloMosaic.TcCoe Idealize.SL.Sem
open Idealize.ShloMosaic.Pipeline (Dat)

namespace Cert.KernelIdeal.Fold

open Cert.KernelIdeal Cert.KernelIdeal.Gen Idealize.ShloMosaic.ValueIdx

variable (m : (ℓ : Loc nD τ sig) → Buf (Elt Ideal) ℓ)

/-- The three argument arrays on core c. -/
abbrev X (c : Dev nD) : Fm.SX.Idx → EReal := m ((c : Thread nD τ).loc main_arg0)
abbrev W (c : Dev nD) : Fm.SW.Idx → EReal := m ((c : Thread nD τ).loc main_arg1)
abbrev Vv (c : Dev nD) : Fm.SV.Idx → EReal := m ((c : Thread nD τ).loc main_arg2)

/-- The four input blocks at point t, at their literal shapes. -/
abbrev xb (c : Dev nD) (t : Fin cfg0.N) : FVec Ideal S512x4096 .f32 := iblk m c 0 t
abbrev wb (c : Dev nD) (t : Fin cfg0.N) : FVec Ideal S4096x1 .bf16 := iblk m c 1 t
abbrev vb (c : Dev nD) (t : Fin cfg0.N) : FVec Ideal S4096x16 .bf16 := iblk m c 2 t
abbrev qb (c : Dev nD) (t : Fin cfg0.N) : FVec Ideal S4096x16 .bf16 := iblk m c 3 t

/-! ## One point's addend to each accumulator -/

/-- Point n's addend to the first-order accumulator at (r, q). -/
def linAdd (c : Dev nD) (n : ℕ) (y : S512x1.Idx) : EReal :=
  ∑ κ : Fin 4096, Fm.xN (X m c) (512 * (n / 25) + (y 0).val) (4096 * (n % 25) + κ.val) * Fm.wN (W m c) (4096 * (n % 25) + κ.val) (y 1).val

/-- Point n's addend to the projection accumulator at (r, j). -/
def crossAdd (c : Dev nD) (n : ℕ) (y : S512x16.Idx) : EReal :=
  ∑ κ : Fin 4096, Fm.xN (X m c) (512 * (n / 25) + (y 0).val) (4096 * (n % 25) + κ.val) * Fm.vN (Vv m c) (4096 * (n % 25) + κ.val) (y 1).val

/-- Point n's addend to the squares accumulator at (r, j). -/
def sqsAdd (c : Dev nD) (n : ℕ) (y : S512x16.Idx) : EReal :=
  ∑ κ : Fin 4096, (Fm.xN (X m c) (512 * (n / 25) + (y 0).val) (4096 * (n % 25) + κ.val) * Fm.xN (X m c) (512 * (n / 25) + (y 0).val) (4096 * (n % 25) + κ.val))
    * (Fm.vN (Vv m c) (4096 * (n % 25) + κ.val) (y 1).val * Fm.vN (Vv m c) (4096 * (n % 25) + κ.val) (y 1).val)

/-- One first-order update at point t: the previous entry plus that point's addend. -/
theorem linUpd_at (c : Dev nD) (t : Fin cfg0.N) (acc : FVec Ideal S512x1 .f32) (y : S512x1.Idx) :
    k0_pay7 (F := Ideal) (xb m c t) acc (wb m c t) y = acc y + linAdd m c t.val y := by
  obtain ⟨r, q, rfl⟩ : ∃ (r : Fin 512) (q : Fin 1), y = ix2 r q := ⟨y 0, y 1, eq_ix2 y⟩
  refine (Payload.linUpd_apply (xb m c t) acc (wb m c t) r q).trans ?_
  unfold linAdd
  refine congrArg (acc (ix2 r q) + ·) (Finset.sum_congr rfl fun κ _ => ?_)
  exact congrArg₂ (· * ·) (Blocks.xblk_apply m c t r κ) (Blocks.wblk_apply m c t κ q)

/-- One projection update at point t. -/
theorem crossUpd_at (c : Dev nD) (t : Fin cfg0.N) (acc : FVec Ideal S512x16 .f32) (y : S512x16.Idx) :
    k0_pay8 (F := Ideal) (xb m c t) acc (vb m c t) y = acc y + crossAdd m c t.val y := by
  obtain ⟨r, j, rfl⟩ : ∃ (r : Fin 512) (j : Fin 16), y = ix2 r j := ⟨y 0, y 1, eq_ix2 y⟩
  refine (Payload.crossUpd_apply (xb m c t) acc (vb m c t) r j).trans ?_
  unfold crossAdd
  refine congrArg (acc (ix2 r j) + ·) (Finset.sum_congr rfl fun κ _ => ?_)
  exact congrArg₂ (· * ·) (Blocks.xblk_apply m c t r κ) (Blocks.vblk_apply m c t κ j)

/-- One squares update at point t. -/
theorem sqsUpd_at (c : Dev nD) (t : Fin cfg0.N) (acc : FVec Ideal S512x16 .f32) (y : S512x16.Idx) :
    k0_pay1 (F := Ideal) (k0_pay9 (F := Ideal) (xb m c t) acc (qb m c t)) y = acc y + sqsAdd m c t.val y := by
  obtain ⟨r, j, rfl⟩ : ∃ (r : Fin 512) (j : Fin 16), y = ix2 r j := ⟨y 0, y 1, eq_ix2 y⟩
  refine (Payload.sqsUpd_apply (xb m c t) acc (qb m c t) r j).trans ?_
  unfold sqsAdd
  refine congrArg (acc (ix2 r j) + ·) (Finset.sum_congr rfl fun κ _ => ?_)
  exact congrArg₂ (· * ·) (congrArg₂ (· * ·) (Blocks.xblk_apply m c t r κ) (Blocks.xblk_apply m c t r κ)) (Blocks.vsqblk_apply m c t κ j)

/-! ## What a point leaves in each accumulator, by the point's place in its row tile -/

/-- At the first block of a row tile accumulator 0 is zero plus the block's partial product, whatever it held. -/
theorem lin_reset (c : Dev nD) (n : ℕ) (hb : n < cfg0.N) (h0 : n % 25 = 0) (acc : Vec Ideal S512x1 .f32) :
    Value.scAt0_0 m c n hb acc = k0_pay7 (F := Ideal) (xb m c (⟨n, hb⟩ : Fin cfg0.N)) (k0_pay3 (F := Ideal)) (wb m c (⟨n, hb⟩ : Fin cfg0.N)) := by
  have hN : n < 100 := lt_of_lt_of_eq hb N_0
  have h1 : ¬n % 25 = 24 := by omega
  unfold Value.scAt0_0
  rw [dif_pos h0, dif_neg h1]
  exact Pieces.first_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- At every later block it is what it held plus the block's partial product. -/
theorem lin_step (c : Dev nD) (n : ℕ) (hb : n < cfg0.N) (h0 : ¬n % 25 = 0) (acc : Vec Ideal S512x1 .f32) :
    Value.scAt0_0 m c n hb acc = k0_pay7 (F := Ideal) (xb m c (⟨n, hb⟩ : Fin cfg0.N)) acc (wb m c (⟨n, hb⟩ : Fin cfg0.N)) := by
  unfold Value.scAt0_0
  by_cases h1 : n % 25 = 24
  · rw [dif_neg h0, dif_pos h1]
    exact Pieces.last_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2
  · rw [dif_neg h0, dif_neg h1]
    exact Pieces.mid_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2

/-- At the first block of a row tile accumulator 1 is zero plus the block's partial product, whatever it held. -/
theorem cross_reset (c : Dev nD) (n : ℕ) (hb : n < cfg0.N) (h0 : n % 25 = 0) (acc : Vec Ideal S512x16 .f32) :
    Value.scAt0_1 m c n hb acc = k0_pay8 (F := Ideal) (xb m c (⟨n, hb⟩ : Fin cfg0.N)) (k0_pay4 (F := Ideal)) (vb m c (⟨n, hb⟩ : Fin cfg0.N)) := by
  have hN : n < 100 := lt_of_lt_of_eq hb N_0
  have h1 : ¬n % 25 = 24 := by omega
  unfold Value.scAt0_1
  rw [dif_pos h0, dif_neg h1]
  exact Pieces.first_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- At every later block it is what it held plus the block's partial product. -/
theorem cross_step (c : Dev nD) (n : ℕ) (hb : n < cfg0.N) (h0 : ¬n % 25 = 0) (acc : Vec Ideal S512x16 .f32) :
    Value.scAt0_1 m c n hb acc = k0_pay8 (F := Ideal) (xb m c (⟨n, hb⟩ : Fin cfg0.N)) acc (vb m c (⟨n, hb⟩ : Fin cfg0.N)) := by
  unfold Value.scAt0_1
  by_cases h1 : n % 25 = 24
  · rw [dif_neg h0, dif_pos h1]
    exact Pieces.last_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2
  · rw [dif_neg h0, dif_neg h1]
    exact Pieces.mid_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2

/-- At the first block of a row tile accumulator 2 is zero plus the block's partial product, whatever it held. -/
theorem sqs_reset (c : Dev nD) (n : ℕ) (hb : n < cfg0.N) (h0 : n % 25 = 0) (acc : Vec Ideal S512x16 .f32) :
    Value.scAt0_2 m c n hb acc = k0_pay1 (F := Ideal) (k0_pay9 (F := Ideal) (xb m c (⟨n, hb⟩ : Fin cfg0.N)) (k0_pay5 (F := Ideal)) (qb m c (⟨n, hb⟩ : Fin cfg0.N))) := by
  have hN : n < 100 := lt_of_lt_of_eq hb N_0
  have h1 : ¬n % 25 = 24 := by omega
  unfold Value.scAt0_2
  rw [dif_pos h0, dif_neg h1]
  exact Pieces.first_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- At every later block it is what it held plus the block's partial product. -/
theorem sqs_step (c : Dev nD) (n : ℕ) (hb : n < cfg0.N) (h0 : ¬n % 25 = 0) (acc : Vec Ideal S512x16 .f32) :
    Value.scAt0_2 m c n hb acc = k0_pay1 (F := Ideal) (k0_pay9 (F := Ideal) (xb m c (⟨n, hb⟩ : Fin cfg0.N)) acc (qb m c (⟨n, hb⟩ : Fin cfg0.N))) := by
  unfold Value.scAt0_2
  by_cases h1 : n % 25 = 24
  · rw [dif_neg h0, dif_pos h1]
    exact Pieces.last_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc
  · rw [dif_neg h0, dif_neg h1]
    exact Pieces.mid_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc

/-! ## The accumulators after any point, entry by entry -/

/-- Accumulator 0 after point t: zero plus the addends of the points of t's row tile up to t. -/
theorem lin_fold (c : Dev nD) (t : Fin cfg0.N) (y : S512x1.Idx) :
    (outsAt0 m c t.val t.isLt).2.1 y = 0 + ∑ s ∈ Finset.range (t.val % 25 + 1), linAdd m c (25 * (t.val / 25) + s) y := by
  have hN : t.val < 100 := lt_of_lt_of_eq t.isLt N_0
  rw [Value.soutsAt0_0_eq m c t]
  refine Pipeline.accAt_add_apply (ι := S512x1.Idx) (β := EReal) _ _ (fun _ => (0 : EReal)) (linAdd m c) (25 * (t.val / 25)) 24 ?_ ?_ (t.val % 25) (by omega) _ y
  · intro h i
    show Value.scAt0_0 m c (25 * (t.val / 25)) h _ i = _
    rw [lin_reset m c _ h (by omega) _, linUpd_at m c ⟨_, h⟩ _ i, Payload.zero1_apply]
  · intro n h acc i hlo hhi
    show Value.scAt0_0 m c n h acc i = _
    rw [lin_step m c n h (by omega) acc, linUpd_at m c ⟨n, h⟩ acc i]

/-- Accumulator 1 after point t: zero plus the addends of the points of t's row tile up to t. -/
theorem cross_fold (c : Dev nD) (t : Fin cfg0.N) (y : S512x16.Idx) :
    (outsAt0 m c t.val t.isLt).2.2.1 y = 0 + ∑ s ∈ Finset.range (t.val % 25 + 1), crossAdd m c (25 * (t.val / 25) + s) y := by
  have hN : t.val < 100 := lt_of_lt_of_eq t.isLt N_0
  rw [Value.soutsAt0_1_eq m c t]
  refine Pipeline.accAt_add_apply (ι := S512x16.Idx) (β := EReal) _ _ (fun _ => (0 : EReal)) (crossAdd m c) (25 * (t.val / 25)) 24 ?_ ?_ (t.val % 25) (by omega) _ y
  · intro h i
    show Value.scAt0_1 m c (25 * (t.val / 25)) h _ i = _
    rw [cross_reset m c _ h (by omega) _, crossUpd_at m c ⟨_, h⟩ _ i, Payload.zero16a_apply]
  · intro n h acc i hlo hhi
    show Value.scAt0_1 m c n h acc i = _
    rw [cross_step m c n h (by omega) acc, crossUpd_at m c ⟨n, h⟩ acc i]

/-- Accumulator 2 after point t: zero plus the addends of the points of t's row tile up to t. -/
theorem sqs_fold (c : Dev nD) (t : Fin cfg0.N) (y : S512x16.Idx) :
    (outsAt0 m c t.val t.isLt).2.2.2 y = 0 + ∑ s ∈ Finset.range (t.val % 25 + 1), sqsAdd m c (25 * (t.val / 25) + s) y := by
  have hN : t.val < 100 := lt_of_lt_of_eq t.isLt N_0
  rw [Value.soutsAt0_2_eq m c t]
  refine Pipeline.accAt_add_apply (ι := S512x16.Idx) (β := EReal) _ _ (fun _ => (0 : EReal)) (sqsAdd m c) (25 * (t.val / 25)) 24 ?_ ?_ (t.val % 25) (by omega) _ y
  · intro h i
    show Value.scAt0_2 m c (25 * (t.val / 25)) h _ i = _
    rw [sqs_reset m c _ h (by omega) _, sqsUpd_at m c ⟨_, h⟩ _ i, Payload.zero16b_apply]
  · intro n h acc i hlo hhi
    show Value.scAt0_2 m c n h acc i = _
    rw [sqs_step m c n h (by omega) acc, sqsUpd_at m c ⟨n, h⟩ acc i]

/-! ## The 25 addends of a row tile are the whole sums over d -/

theorem lin_total (c : Dev nD) (q : ℕ) (r : Fin 512) (b : Fin 2048) (hb : b.val = 512 * q + r.val) :
    0 + ∑ s ∈ Finset.range 25, linAdd m c (25 * q + s) (ix2 r (0 : Fin 1)) = Fm.lin (X m c) (W m c) b := by
  rw [zero_add, ← Fm.lin_blocks (X m c) (W m c) b]
  refine Finset.sum_congr rfl fun s hs => ?_
  have hs' : s < 25 := Finset.mem_range.mp hs
  unfold linAdd
  rw [show (25 * q + s) / 25 = q by omega, show (25 * q + s) % 25 = s by omega, hb]
  rfl

theorem cross_total (c : Dev nD) (q : ℕ) (r : Fin 512) (j : Fin 16) (b : Fin 2048) (hb : b.val = 512 * q + r.val) :
    0 + ∑ s ∈ Finset.range 25, crossAdd m c (25 * q + s) (ix2 r j) = Fm.cross (X m c) (Vv m c) b j := by
  rw [zero_add, ← Fm.cross_blocks (X m c) (Vv m c) b j]
  refine Finset.sum_congr rfl fun s hs => ?_
  have hs' : s < 25 := Finset.mem_range.mp hs
  unfold crossAdd
  rw [show (25 * q + s) / 25 = q by omega, show (25 * q + s) % 25 = s by omega, hb]

theorem sqs_total (c : Dev nD) (q : ℕ) (r : Fin 512) (j : Fin 16) (b : Fin 2048) (hb : b.val = 512 * q + r.val) :
    0 + ∑ s ∈ Finset.range 25, sqsAdd m c (25 * q + s) (ix2 r j) = Fm.sqs (X m c) (Vv m c) b j := by
  rw [zero_add, ← Fm.sqs_blocks (X m c) (Vv m c) b j]
  refine Finset.sum_congr rfl fun s hs => ?_
  have hs' : s < 25 := Finset.mem_range.mp hs
  unfold sqsAdd
  rw [show (25 * q + s) / 25 = q by omega, show (25 * q + s) % 25 = s by omega, hb]

/-! ## The output block at a row tile's last point -/

/-- Row r of the block computed at the last point of row tile t/25 is the score of row 512·(t/25) + r: the epilogue
    reads the three accumulators as they stand after this point, and those are the whole sums. -/
theorem out_row (c : Dev nD) (t : Fin cfg0.N) (h0 : ¬t.val % 25 = 0) (h1 : t.val % 25 = 24) (r : Fin 512) (b : Fin 2048)
    (hb : b.val = 512 * (t.val / 25) + r.val) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix1 r)
      = Fm.row (X m c) (W m c) (Vv m c) b := by
  have hq : t.val % 25 + 1 = 25 := by omega
  have e0 : (outsAt0 m c t.val t.isLt).2.1 = k0_pay7 (F := Ideal) (xb m c t) (outsAt0 m c (t.val - 1) (Nat.lt_of_le_of_lt (Nat.sub_le _ _) t.isLt)).2.1 (wb m c t) := by
    rw [outsAt0_C m c t h0 h1]; dsimp only
    exact Pieces.last_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  have e1 : (outsAt0 m c t.val t.isLt).2.2.1 = k0_pay8 (F := Ideal) (xb m c t) (outsAt0 m c (t.val - 1) (Nat.lt_of_le_of_lt (Nat.sub_le _ _) t.isLt)).2.2.1 (vb m c t) := by
    rw [outsAt0_C m c t h0 h1]; dsimp only
    exact Pieces.last_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  have e2 : (outsAt0 m c t.val t.isLt).2.2.2 = k0_pay1 (F := Ideal) (k0_pay9 (F := Ideal) (xb m c t) (outsAt0 m c (t.val - 1) (Nat.lt_of_le_of_lt (Nat.sub_le _ _) t.isLt)).2.2.2 (qb m c t)) := by
    rw [outsAt0_C m c t h0 h1]; dsimp only
    exact Pieces.last_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  have key : out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
      = k0_pay2 (F := Ideal) (outsAt0 m c t.val t.isLt).2.1 (outsAt0 m c t.val t.isLt).2.2.1 (outsAt0 m c t.val t.isLt).2.2.1 (outsAt0 m c t.val t.isLt).2.2.2 := by
    rw [e0, e1, e2]
    exact Pieces.last_out (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  refine (congrFun key (ix1 r)).trans ?_
  refine (Payload.epilogue_apply (outsAt0 m c t.val t.isLt).2.1 (outsAt0 m c t.val t.isLt).2.2.1 (outsAt0 m c t.val t.isLt).2.2.1 (outsAt0 m c t.val t.isLt).2.2.2 r).trans ?_
  unfold Fm.row
  rw [lin_fold m c t (ix2 r (0 : Fin 1)), hq, lin_total m c (t.val / 25) r b hb]
  refine congrArg (Fm.lin (X m c) (W m c) b + Fm.half * ·) (Finset.sum_congr rfl fun j _ => ?_)
  rw [cross_fold m c t (ix2 r j), sqs_fold m c t (ix2 r j), hq, cross_total m c (t.val / 25) r j b hb, sqs_total m c (t.val / 25) r j b hb]

/-! ## From the blocks to the array -/

/-- The output window's block index is the row tile. -/
theorem index4 : ∀ t : Fin cfg0.N, win0_4.index t 0 = t.val / 25 :=
  (by decide +kernel : ∀ t : Fin grid0.N, _)

/-- What a writing point writes back is its block of the score function. -/
theorem flushed_eq (c : Dev nD) (t : Fin cfg0.N) (hf : (cfg0.win 4).flush t = true) :
    (dats m 0 c).flushed 4 t = ((cfg0.win 4).blk t).view.read (Elt Ideal) (Fm.G (X m c) (W m c) (Vv m c)) := by
  have h1 : t.val % 25 = 24 := (flush0_4 t).mp hf
  have h0 : ¬t.val % 25 = 0 := by omega
  have hN : t.val < 100 := lt_of_lt_of_eq t.isLt N_0
  rw [Value.flushed4_C m c t h0 h1]
  funext j
  obtain ⟨r, rfl⟩ : ∃ r : Fin 512, j = ix1 r := ⟨j 0, eq_ix1 j⟩
  have hb : 512 * (t.val / 25) + r.val < 2048 := by omega
  show out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix1 r)
    = Fm.row (X m c) (W m c) (Vv m c) ((((cfg0.win 4).blk t).view.emb (ix1 r)) 0)
  refine (out_row m c t h0 h1 r ⟨_, hb⟩ rfl).trans ?_
  refine congrArg (Fm.row (X m c) (W m c) (Vv m c)) (Fin.ext ?_)
  show 512 * (t.val / 25) + r.val = win0_4.index t 0 * 512 + 1 * r.val
  rw [index4 t]; omega

/-- An index is in point t's output block iff its row is in the block's range. -/
theorem mem_blk (t : Fin cfg0.N) (i : S2048.Idx) :
    i ∈ ((cfg0.win 4).blk t).view.set ↔ ∀ a : Fin 1, win0_4.index t a * S512.size a ≤ (i a).val ∧ (i a).val < win0_4.index t a * S512.size a + S512.size a := by
  show i ∈ ((View.whole main_v7).slice (win0_4.rect t)).set ↔ _
  rw [View.set_slice_whole, Rect.mem_set_unit]
  exact Iff.rfl

/-- Row b lies in the block written at the last point of row tile b/512. -/
theorem cover (i : S2048.Idx) : ∃ t : Fin cfg0.N, (cfg0.win 4).flush t = true ∧ i ∈ ((cfg0.win 4).blk t).view.set := by
  have hi : (i 0).val < 2048 := (i 0).isLt
  have hN : cfg0.N = 100 := N_0
  refine ⟨⟨25 * ((i 0).val / 512) + 24, by rw [hN]; omega⟩, (flush0_4 _).mpr (by show (25 * ((i 0).val / 512) + 24) % 25 = 24; omega), ?_⟩
  rw [mem_blk]
  intro a
  match a with
  | ⟨0, _⟩ =>
    show win0_4.index _ 0 * 512 ≤ (i 0).val ∧ (i 0).val < win0_4.index _ 0 * 512 + 512
    rw [index4]
    show (25 * ((i 0).val / 512) + 24) / 25 * 512 ≤ (i 0).val ∧ (i 0).val < (25 * ((i 0).val / 512) + 24) / 25 * 512 + 512
    omega

/-- The result array after the run is the score function of the three arguments. -/
theorem final (c : Dev nD) : (dats m 0 c).arrAt 4 cfg0.N = Fm.G (X m c) (W m c) (Vv m c) :=
  (dats m 0 c).arrAt_eq_of_cover 4 (Fm.G (X m c) (W m c) (Vv m c)) (fun t hf => flushed_eq m c t hf) cover

/-- The kernel's run: it ends with the result array at the score function and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v7) = Fm.G (X m c) (W m c) (Vv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Fold
end
-- ==== Proof.lean ====
/-
  A factorization-machine score, computed two ways, and the claim that the two agree on the extended reals.

  For x : [2048, 100000], w : [100000, 1], v : [100000, 16] the score of row b is
      ∑_d x(b,d)·w(d,0) + ½·∑_j ( (∑_d x(b,d)·v(d,j))² − ∑_d x(b,d)²·v(d,j)² ).
  The reference takes the three matrix products whole. The kernel pads the d axis with zeros to 102400, walks a 4 × 25
  grid of 512-row tiles and 4096-column blocks, keeps three accumulators per row tile (reset at the first block, one
  block's partial product added per point) and, at the last block, combines them into the tile's 512 scores.

  Both results are the function Fm.G of the arguments:
    · the reference by reading its operations one at a time (Fm.Ref.result_eq);
    · the kernel because each accumulator after the last block holds zero plus 25 partial sums of 4096 terms of the
      zero-continued arrays, which is the whole sum (Fm.sum_blocks: addition on the extended reals is commutative and
      associative and 0·0 = 0, so no finiteness is used), and the four written blocks tile the 2048 rows
      (KernelIdeal.Fold.final).
  The three frame claims are the generated frames and the reference's generated run; the idealization rewrote nothing.
-/
import proofs.«150377_j73907797229838_1_alg».proof.Defs
import proofs.«150377_j73907797229838_1_alg».proof.Proof.Gen.Kernel
import proofs.«150377_j73907797229838_1_alg».proof.Proof.Gen.Kernel.Skeleton
import proofs.«150377_j73907797229838_1_alg».proof.Proof.Gen.Kernel.Launch
import proofs.«150377_j73907797229838_1_alg».proof.Proof.Gen.Kernel.Points
import proofs.«150377_j73907797229838_1_alg».proof.Proof.Gen.Kernel.Frame
import proofs.«150377_j73907797229838_1_alg».proof.Proof.Gen.KernelIdeal
import proofs.«150377_j73907797229838_1_alg».proof.Proof.Gen.KernelIdeal.Skeleton
import proofs.«150377_j73907797229838_1_alg».proof.Proof.Gen.KernelIdeal.Launch
import proofs.«150377_j73907797229838_1_alg».proof.Proof.Gen.KernelIdeal.Points
import proofs.«150377_j73907797229838_1_alg».proof.Proof.Gen.KernelIdeal.Frame
import proofs.«150377_j73907797229838_1_alg».proof.Proof.Gen.ReferenceIdeal
import proofs.«150377_j73907797229838_1_alg».proof.Proof.Gen.Pre_finite_inputs
import proofs.«150377_j73907797229838_1_alg».proof.Proof.Gen.KernelIdeal.Value
import proofs.«150377_j73907797229838_1_alg».proof.Proof.Gen.ReferenceIdeal.Run
import proofs.«150377_j73907797229838_1_alg».proof.Proof.Gen.ReferenceIdeal.Read
import proofs.«150377_j73907797229838_1_alg».proof.Proof.FmRef
import proofs.«150377_j73907797229838_1_alg».proof.Proof.FmFold
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, w and v, both programs end with the score function of those arrays. -/
theorem algebraic : Cert.algebraic_KernelIdeal_ReferenceIdeal := by
  intro m ρ m' ρ' _ hagree
  refine ⟨fun c => Cert.Fm.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.Fm.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
